-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x24x512x128 : Shape := ⟨4, ![16, 24, 512, 128]⟩
abbrev S128x384 : Shape := ⟨2, ![128, 384]⟩
abbrev S128 : Shape := ⟨1, ![128]⟩
abbrev S12x128 : Shape := ⟨2, ![12, 128]⟩
abbrev S12 : Shape := ⟨1, ![12]⟩
abbrev S_ : Shape := ⟨0, ![]⟩

class Facts : Prop where
  bcast_S_S16x24x512x128 : S_.BroadcastsInDim S16x24x512x128 (![] : Fin 0 → Fin S16x24x512x128.rank)
  reducesTo_S16x24x512x128_S_d0_1_2_3 : S16x24x512x128.ReducesTo [0, 1, 2, 3] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S12x128 : S_.BroadcastsInDim S12x128 (![] : Fin 0 → Fin S12x128.rank)
  reducesTo_S12x128_S_d0_1 : S12x128.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S128 .f32) (main_arg5 : FVec F S12x128 .f32) (main_arg6 : FVec F S12 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S12x128 .f32 := Host.absf main_arg5
  let main_cst_8 : FVec F S_ .f32 := constant S_ .f32 0x7F800000#32
  let main_v25 : FVec F S12x128 .f32 := broadcastInDim S12x128 ![] bcast_S_S12x128 main_cst_8
  let main_v26 : IVec S12x128 1 := cmpf .olt main_v24 main_v25
  let main_c_9 : IVec S_ 1 := constantI S_ 1 1#1
  let main_v27 : IVec S_ 1 := (fun x v => Host.reduce IntOp.andi x v reducesTo_S12x128_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S16x24x512x128 .f32) (main_arg1 : FVec F S16x24x512x128 .f32) (main_arg2 : FVec F S16x24x512x128 .f32) (main_arg3 : FVec F S128x384 .f32) (main_arg4 : FVec F S128 .f32) (main_arg5 : FVec F S12x128 .f32) (main_arg6 : FVec F S12 .f32) : IVec S_ 1 :=
  let main_v0 : FVec F S16x24x512x128 .f32 := Host.absf main_arg0
  let main_cst : FVec F S_ .f32 := constant S_ .f32 0x7F800000#32
  let main_v1 : FVec F S16x24x512x128 .f32 := broadcastInDim S16x24x512x128 ![] bcast_S_S16x24x512x128 main_cst
  let main_v2 : IVec S16x24x512x128 1 := cmpf .olt main_v0 main_v1
  let main_c : IVec S_ 1 := constantI S_ 1 1#1
  let main_v3 : IVec S_ 1 := (fun x v => Host.reduce IntOp.andi x v reducesTo_S16x24x512x128_S_d0_1_2_3 h_S_) main_v2 main_c
  let main_v4 : FVec F S16x24x512x128 .f32 := Host.absf main_arg1
  let main_cst_0 : FVec F S_ .f32 := constant S_ .f32 0x7F800000#32
  let main_v5 : FVec F S16x24x512x128 .f32 := broadcastInDim S16x24x512x128 ![] bcast_S_S16x24x512x128 main_cst_0
  let main_v6 : IVec S16x24x512x128 1 := cmpf .olt main_v4 main_v5
  let main_c_1 : IVec S_ 1 := constantI S_ 1 1#1
  let main_v7 : IVec S_ 1 := (fun x v => Host.reduce IntOp.andi x v reducesTo_S16x24x512x128_S_d0_1_2_3 h_S_) main_v6 main_c_1
  let main_v8 : IVec S_ 1 := andi main_v3 main_v7
  let main_v9 : FVec F S16x24x512x128 .f32 := Host.absf main_arg2
  let main_cst_2 : FVec F S_ .f32 := constant S_ .f32 0x7F800000#32
  let main_v10 : FVec F S16x24x512x128 .f32 := broadcastInDim S16x24x512x128 ![] bcast_S_S16x24x512x128 main_cst_2
  let main_v11 : IVec S16x24x512x128 1 := cmpf .olt main_v9 main_v10
  let main_c_3 : IVec S_ 1 := constantI S_ 1 1#1
  let main_v12 : IVec S_ 1 := (fun x v => Host.reduce IntOp.andi x v reducesTo_S16x24x512x128_S_d0_1_2_3 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_v13 main_v16
-- ==== Kernel.lean ====
abbrev S16x24x512x128 : Shape := ⟨4, ![16, 24, 512, 128]⟩
abbrev S128x384 : Shape := ⟨2, ![128, 384]⟩
abbrev S128 : Shape := ⟨1, ![128]⟩
abbrev S12x128 : Shape := ⟨2, ![12, 128]⟩
abbrev S12 : Shape := ⟨1, ![12]⟩
abbrev S16x512x12 : Shape := ⟨3, ![16, 512, 12]⟩
abbrev S1x1x512x128 : Shape := ⟨4, ![1, 1, 512, 128]⟩
abbrev S1x512x12 : Shape := ⟨3, ![1, 512, 12]⟩
abbrev S512x128 : Shape := ⟨2, ![512, 128]⟩
abbrev S512x384 : Shape := ⟨2, ![512, 384]⟩
abbrev S1x128 : Shape := ⟨2, ![1, 128]⟩
abbrev S512x12 : Shape := ⟨2, ![512, 12]⟩
abbrev S1x12 : Shape := ⟨2, ![1, 12]⟩
abbrev S16x512x12x1 : Shape := ⟨4, ![16, 512, 12, 1]⟩
abbrev S16x12x512x1 : Shape := ⟨4, ![16, 12, 512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16x24x512x128, .f32⟩
  | .hbm, ⟨1, _⟩ => ⟨S16x24x512x128, .f32⟩
  | .hbm, ⟨2, _⟩ => ⟨S16x24x512x128, .f32⟩
  | .hbm, ⟨3, _⟩ => ⟨S128x384, .f32⟩
  | .hbm, ⟨4, _⟩ => ⟨S128, .f32⟩
  | .hbm, ⟨5, _⟩ => ⟨S12x128, .f32⟩
  | .hbm, ⟨6, _⟩ => ⟨S12, .f32⟩
  | .hbm, ⟨7, _⟩ => ⟨S16x512x12, .f32⟩
  | .hbm, ⟨8, _⟩ => ⟨S16x512x12x1, .f32⟩
  | .hbm, ⟨9, _⟩ => ⟨S16x12x512x1, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x512x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | .local _ .vmem, ⟨6, _⟩ => ⟨S128x384, .f32⟩
  | .local _ .vmem, ⟨7, _⟩ => ⟨S128, .f32⟩
  | .local _ .vmem, ⟨8, _⟩ => ⟨S12x128, .f32⟩
  | .local _ .vmem, ⟨9, _⟩ => ⟨S12, .f32⟩
  | .local _ .vmem, ⟨10, _⟩ => ⟨S1x512x12, .f32⟩
  | .local _ .vmem, ⟨11, _⟩ => ⟨S1x512x12, .f32⟩
  | _, _ => ⟨S16x24x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc0_transform_1 (i : grid0.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc0_transform_2 (i : grid0.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  concatenates_S512x128_S512x128_S512x128_S512x384_d1 : Shape.Concatenates [S512x128, S512x128, S512x128] S512x384 1
  inb_S128x384_S128x384_0_0 : ∀ a, (![0, 0] : Fin 2 → Nat) a + S128x384.size a ≤ S128x384.size a
  h_S128x384 : 0 < S128x384.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S512x128 : S1x128.Broadcasts S512x128
  inb_S12x128_S12x128_0_0 : ∀ a, (![0, 0] : Fin 2 → Nat) a + S12x128.size a ≤ S12x128.size a
  h_S12x128 : 0 < S12x128.numel
  inb_S12_S12_0 : ∀ a, (![0] : Fin 1 → Nat) a + S12.size a ≤ S12.size a
  h_S12 : 0 < S12.numel
  shapeCasts_S12_S1x12 : S12.ShapeCasts S1x12
  broadcasts_S1x12_S512x12 : S1x12.Broadcasts S512x12
  inb_S1x512x12_S1x512x12_0_0_0 : ∀ a, (![0, 0, 0] : Fin 3 → Nat) a + S1x512x12.size a ≤ S1x512x12.size a
  h_S1x512x12 : 0 < S1x512x12.numel
  shapeCasts_S1x512x12_S512x12 : S1x512x12.ShapeCasts S512x12
  shapeCasts_S512x12_S1x512x12 : S512x12.ShapeCasts S1x512x12
  shapeCasts_S16x512x12_S16x512x12x1 : S16x512x12.ShapeCasts S16x512x12x1
  transposes_S16x512x12x1_S16x12x512x1_0_2_1_3 : S16x512x12x1.Transposes [0, 2, 1, 3] S16x12x512x1
  dot_S512x384_S128x384_S512x128_1_1_0_0_n_n_wf : DotDims.WF S512x384 S128x384 S512x128 [1] [1] [0] [0] [] []
  dot_S512x128_S12x128_S512x12_1_1_0_0_n_n_wf : DotDims.WF S512x128 S12x128 S512x12 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x128.size a ≤ S16x24x512x128.size a
  hwx0_0 : ∀ i : grid0.Coords, EltTy.bits .f32 = 32 ∨ (Rect.block (s := S16x24x512x128) S1x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x128.size a ≤ S16x24x512x128.size a
  hwx0_1 : ∀ i : grid0.Coords, EltTy.bits .f32 = 32 ∨ (Rect.block (s := S16x24x512x128) S1x1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x128.size a ≤ S16x24x512x128.size a
  hwx0_2 : ∀ i : grid0.Coords, EltTy.bits .f32 = 32 ∨ (Rect.block (s := S16x24x512x128) S1x1x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x128.size a ≤ S12x128.size a
  hwx0_5 : ∀ i : grid0.Coords, EltTy.bits .f32 = 32 ∨ (Rect.block (s := S12x128) S12x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12.size a ≤ S12.size a
  hwx0_6 : ∀ i : grid0.Coords, EltTy.bits .f32 = 32 ∨ (Rect.block (s := S12) S12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x12.size a ≤ S16x512x12.size a
  hwx0_7 : ∀ i : grid0.Coords, EltTy.bits .f32 = 32 ∨ (Rect.block (s := S16x512x12) S1x512x12.size (cc0_transform_7 i) (hinb0_7 i)).WholeWords (EltTy.packing .f32)

variable [Facts₀]

def dot_S512x384_S128x384_S512x128_1_1_0_0_n_n : DotDims S512x384 S128x384 S512x128 where
  lhsContracting := [1]
  rhsContracting := [1]
  lhsNonContracting := [0]
  rhsNonContracting := [0]
  lhsBatch := []
  rhsBatch := []
  wf := dot_S512x384_S128x384_S512x128_1_1_0_0_n_n_wf
def dot_S512x128_S12x128_S512x12_1_1_0_0_n_n : DotDims S512x128 S12x128 S512x12 where
  lhsContracting := [1]
  rhsContracting := [1]
  lhsNonContracting := [0]
  rhsNonContracting := [0]
  lhsBatch := []
  rhsBatch := []
  wf := dot_S512x128_S12x128_S512x12_1_1_0_0_n_n_wf

abbrev win0_0 : Pipeline.Window sig grid0 :=
  Pipeline.Window.ofSpec (Memref.whole main_arg0) S1x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S12x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x12.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x24x512x128 : Shape := ⟨4, ![16, 24, 512, 128]⟩
abbrev S128x384 : Shape := ⟨2, ![128, 384]⟩
abbrev S128 : Shape := ⟨1, ![128]⟩
abbrev S12x128 : Shape := ⟨2, ![12, 128]⟩
abbrev S12 : Shape := ⟨1, ![12]⟩
abbrev S16x1x512x128 : Shape := ⟨4, ![16, 1, 512, 128]⟩
abbrev S16x512x128 : Shape := ⟨3, ![16, 512, 128]⟩
abbrev S16x512x384 : Shape := ⟨3, ![16, 512, 384]⟩
abbrev S1x1x128 : Shape := ⟨3, ![1, 1, 128]⟩
abbrev S_ : Shape := ⟨0, ![]⟩
abbrev S16x512x12 : Shape := ⟨3, ![16, 512, 12]⟩
abbrev S1x1x12 : Shape := ⟨3, ![1, 1, 12]⟩
abbrev S16x512x12x1 : Shape := ⟨4, ![16, 512, 12, 1]⟩
abbrev S16x12x512x1 : Shape := ⟨4, ![16, 12, 512, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x24x512x128, .f32⟩
  | .hbm, ⟨1, _⟩ => ⟨S16x24x512x128, .f32⟩
  | .hbm, ⟨2, _⟩ => ⟨S16x24x512x128, .f32⟩
  | .hbm, ⟨3, _⟩ => ⟨S128x384, .f32⟩
  | .hbm, ⟨4, _⟩ => ⟨S128, .f32⟩
  | .hbm, ⟨5, _⟩ => ⟨S12x128, .f32⟩
  | .hbm, ⟨6, _⟩ => ⟨S12, .f32⟩
  | .hbm, ⟨7, _⟩ => ⟨S16x1x512x128, .f32⟩
  | .hbm, ⟨8, _⟩ => ⟨S16x512x128, .f32⟩
  | .hbm, ⟨9, _⟩ => ⟨S16x1x512x128, .f32⟩
  | .hbm, ⟨10, _⟩ => ⟨S16x512x128, .f32⟩
  | .hbm, ⟨11, _⟩ => ⟨S16x1x512x128, .f32⟩
  | .hbm, ⟨12, _⟩ => ⟨S16x512x128, .f32⟩
  | .hbm, ⟨13, _⟩ => ⟨S16x512x384, .f32⟩
  | .hbm, ⟨14, _⟩ => ⟨S16x512x128, .f32⟩
  | .hbm, ⟨15, _⟩ => ⟨S1x1x128, .f32⟩
  | .hbm, ⟨16, _⟩ => ⟨S16x512x128, .f32⟩
  | .hbm, ⟨17, _⟩ => ⟨S16x512x128, .f32⟩
  | .hbm, ⟨18, _⟩ => ⟨S_, .f32⟩
  | .hbm, ⟨19, _⟩ => ⟨S16x512x128, .f32⟩
  | .hbm, ⟨20, _⟩ => ⟨S16x512x128, .i1⟩
  | .hbm, ⟨21, _⟩ => ⟨S_, .f32⟩
  | .hbm, ⟨22, _⟩ => ⟨S16x512x128, .f32⟩
  | .hbm, ⟨23, _⟩ => ⟨S16x512x128, .f32⟩
  | .hbm, ⟨24, _⟩ => ⟨S16x512x128, .f32⟩
  | .hbm, ⟨25, _⟩ => ⟨S16x512x12, .f32⟩
  | .hbm, ⟨26, _⟩ => ⟨S1x1x12, .f32⟩
  | .hbm, ⟨27, _⟩ => ⟨S16x512x12, .f32⟩
  | .hbm, ⟨28, _⟩ => ⟨S16x512x12, .f32⟩
  | .hbm, ⟨29, _⟩ => ⟨S16x512x12x1, .f32⟩
  | .hbm, ⟨30, _⟩ => ⟨S16x12x512x1, .f32⟩
  | _, _ => ⟨S16x24x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S16x24x512x128_S16x1x512x128_0_23_0_0 : S16x24x512x128.Slices ![0, 23, 0, 0] S16x1x512x128
  shapeCasts_S16x1x512x128_S16x512x128 : S16x1x512x128.ShapeCasts S16x512x128
  concatenates_S16x512x128_S16x512x128_S16x512x128_S16x512x384_d2 : Shape.Concatenates [S16x512x128, S16x512x128, S16x512x128] S16x512x384 2
  bcast_S128_S1x1x128_2 : S128.BroadcastsInDim S1x1x128 (![2] : Fin 1 → Fin S1x1x128.rank)
  bcast_S1x1x128_S16x512x128_0_1_2 : S1x1x128.BroadcastsInDim S16x512x128 (![0, 1, 2] : Fin 3 → Fin S16x512x128.rank)
  bcast_S_S16x512x128 : S_.BroadcastsInDim S16x512x128 (![] : Fin 0 → Fin S16x512x128.rank)
  bcast_S12_S1x1x12_2 : S12.BroadcastsInDim S1x1x12 (![2] : Fin 1 → Fin S1x1x12.rank)
  bcast_S1x1x12_S16x512x12_0_1_2 : S1x1x12.BroadcastsInDim S16x512x12 (![0, 1, 2] : Fin 3 → Fin S16x512x12.rank)
  shapeCasts_S16x512x12_S16x512x12x1 : S16x512x12.ShapeCasts S16x512x12x1
  transposes_S16x512x12x1_S16x12x512x1_0_2_1_3 : S16x512x12x1.Transposes [0, 2, 1, 3] S16x12x512x1
  dot_S16x512x384_S128x384_S16x512x128_2_1_01_0_n_n_wf : DotDims.WF S16x512x384 S128x384 S16x512x128 [2] [1] [0, 1] [0] [] []
  dot_S16x512x128_S12x128_S16x512x12_2_1_01_0_n_n_wf : DotDims.WF S16x512x128 S12x128 S16x512x12 [2] [1] [0, 1] [0] [] []

variable [Facts₀]

def dot_S16x512x384_S128x384_S16x512x128_2_1_01_0_n_n : DotDims S16x512x384 S128x384 S16x512x128 where
  lhsContracting := [2]
  rhsContracting := [1]
  lhsNonContracting := [0, 1]
  rhsNonContracting := [0]
  lhsBatch := []
  rhsBatch := []
  wf := dot_S16x512x384_S128x384_S16x512x128_2_1_01_0_n_n_wf
def dot_S16x512x128_S12x128_S16x512x12_2_1_01_0_n_n : DotDims S16x512x128 S12x128 S16x512x12 where
  lhsContracting := [2]
  rhsContracting := [1]
  lhsNonContracting := [0, 1]
  rhsNonContracting := [0]
  lhsBatch := []
  rhsBatch := []
  wf := dot_S16x512x128_S12x128_S16x512x12_2_1_01_0_n_n_wf

class Facts : Prop extends Facts₀ where

variable [Facts]
-- ==== Proof.Spec.lean ====
/-
  The function both programs compute, written once over the extended reals.

  For batch element `b` and node `n` the three input arrays' rows at the last time step are laid side by side
  into one row of 384 features; a first affine map to 128 hidden units is followed by a leaky rectifier
  (`y` where `y > 0`, the printed slope times `y` elsewhere), and a second affine map gives 12 outputs.
  Both matrix products contract the LAST axis of the weight matrix, so entry `(d, k)` of `W1` meets feature `k`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The leaky rectifier with the slope both programs print as the same 32-bit word. -/
def leaky (y : EReal) : EReal :=
  Scalar.select (Ideal.cmp .ogt y (Ideal.ofBits .f32 0x00000000#32)) y (Ideal.ofBits .f32 0x3C23D70A#32 * y)

/-- Hidden unit `d` of a row whose 384 features are `f`. -/
def hidden (f : Fin 384 → EReal) (W1 : (⟨2, ![128, 384]⟩ : Shape).Idx → EReal) (b1 : (⟨1, ![128]⟩ : Shape).Idx → EReal)
    (d : Fin 128) : EReal :=
  leaky ((∑ k : Fin 384, f k * W1 (ix2 d k)) + b1 (ix1 d))

/-- Output `z` of a row whose 384 features are `f`. -/
def outRow (f : Fin 384 → EReal) (W1 : (⟨2, ![128, 384]⟩ : Shape).Idx → EReal) (b1 : (⟨1, ![128]⟩ : Shape).Idx → EReal)
    (W2 : (⟨2, ![12, 128]⟩ : Shape).Idx → EReal) (b2 : (⟨1, ![12]⟩ : Shape).Idx → EReal) (z : Fin 12) : EReal :=
  (∑ d : Fin 128, hidden f W1 b1 d * W2 (ix2 z d)) + b2 (ix1 z)

/-- The 384 features of row `n` taken from three `[P, Q, 512, 128]` arrays at leading coordinates `(p, q)`:
    feature `k` is entry `k % 128` of the row of array `k / 128`. -/
def fusedRow {P Q : Nat} (a : Fin 3 → (⟨4, ![P, Q, 512, 128]⟩ : Shape).Idx → EReal) (p : Fin P) (q : Fin Q)
    (n : Fin 512) (k : Fin 384) : EReal :=
  a ⟨k.val / 128, by have := k.isLt; omega⟩ (ix4 p q n ⟨k.val % 128, Nat.mod_lt _ (by decide)⟩)

/-- The three arrays as one family. -/
def three {α : Type} (a0 a1 a2 : α) : Fin 3 → α := fun j => match j with
  | ⟨0, _⟩ => a0
  | ⟨1, _⟩ => a1
  | ⟨2, _⟩ => a2

/-- The `[16, 512, 12]` array the fused kernel writes and the reference holds before its final re-layout:
    entry `(b, n, z)` is output `z` of the row `(b, n)` at the last of the 24 time steps. -/
def H (a0 a1 a2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal)
    (b2 : (⟨1, ![12]⟩ : Shape).Idx → EReal) : (⟨3, ![16, 512, 12]⟩ : Shape).Idx → EReal :=
  fun j => outRow (fusedRow (three a0 a1 a2) (j 0) (23 : Fin 24) (j 1)) W1 b1 W2 b2 (j 2)

end Cert.Spec

end
-- ==== Proof.Reference.lean ====
/-
  The reference program's result before its final re-layout, read index by index.

  The reference slices the last of the 24 time steps out of each input array, drops the unit axis, joins the
  three `[16, 512, 128]` arrays along the feature axis, and applies the two affine maps with the leaky rectifier
  between them. Entry `(b, n, z)` of the `[16, 512, 12]` array it then holds is the specification's `H`.
-/
import proofs.«104750_j54640573939741_1_alg».proof.Proof.Gen.ReferenceIdeal.Run
import proofs.«104750_j54640573939741_1_alg».proof.Proof.Gen.ReferenceIdeal.Read
import proofs.«104750_j54640573939741_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-! ## A row of one input array at the last time step -/

/-- The slice at time step 23 with its unit axis dropped reads, at `(b, n, c)`, the array at `(b, 23, n, c)`. -/
theorem idx_last (b : Fin 16) (n : Fin 512) (c : Fin 128) :
    idx_main_v0 (idx_main_v1 (ix3 b n c)) = ix4 b (23 : Fin 24) n c := by
  have hb := b.isLt; have hn := n.isLt; have hc := c.isLt
  funext a; apply Fin.ext
  match a with
  | ⟨0, _⟩ => show ((b.val * 512 + n.val) * 128 + c.val) / 65536 = b.val; omega
  | ⟨1, _⟩ => show 23 + 0 = 23; rfl
  | ⟨2, _⟩ => show ((b.val * 512 + n.val) * 128 + c.val) / 128 % 512 = n.val; omega
  | ⟨3, _⟩ => show ((b.val * 512 + n.val) * 128 + c.val) % 128 = c.val; omega

theorem row0 (x0 : S16x24x512x128.Idx → EReal) (b : Fin 16) (n : Fin 512) (c : Fin 128) :
    val_main_v1 (F := Ideal) x0 (ix3 b n c) = x0 (ix4 b (23 : Fin 24) n c) := by
  rw [val_main_v1_apply, val_main_v0_apply]; exact congrArg x0 (idx_last b n c)
theorem row1 (x1 : S16x24x512x128.Idx → EReal) (b : Fin 16) (n : Fin 512) (c : Fin 128) :
    val_main_v3 (F := Ideal) x1 (ix3 b n c) = x1 (ix4 b (23 : Fin 24) n c) := by
  rw [val_main_v3_apply, val_main_v2_apply]; exact congrArg x1 (idx_last b n c)
theorem row2 (x2 : S16x24x512x128.Idx → EReal) (b : Fin 16) (n : Fin 512) (c : Fin 128) :
    val_main_v5 (F := Ideal) x2 (ix3 b n c) = x2 (ix4 b (23 : Fin 24) n c) := by
  rw [val_main_v5_apply, val_main_v4_apply]; exact congrArg x2 (idx_last b n c)

/-! ## The three rows side by side -/

/-- The joined array's entry `(b, n, k)` is feature `k` of the fused row `(b, n)` at the last time step. -/
theorem fused_apply (x0 x1 x2 : S16x24x512x128.Idx → EReal) (b : Fin 16) (n : Fin 512) (k : Fin 384) :
    val_main_v6 (F := Ideal) x0 x1 x2 (ix3 b n k) = Spec.fusedRow (Spec.three x0 x1 x2) b (23 : Fin 24) n k := by
  unfold val_main_v6
  refine (concatenate_ofFn_apply (t := S16x512x384) (s₁ := S16x512x128) 2
    (Spec.three (val_main_v1 (F := Ideal) x0) (val_main_v3 (F := Ideal) x1) (val_main_v5 (F := Ideal) x2))
    concatenates_S16x512x128_S16x512x128_S16x512x128_S16x512x384_d2 rfl 128 rfl (ix3 b n k)
    ⟨k.val / 128, by have := k.isLt; omega⟩ rfl (ix3 b n ⟨k.val % 128, Nat.mod_lt _ (by decide)⟩) rfl
    (fun a ha => by
      match a with
      | ⟨0, _⟩ => rfl
      | ⟨1, _⟩ => rfl
      | ⟨2, _⟩ => exact absurd rfl ha)).trans ?_
  unfold Spec.fusedRow
  generalize hj : (⟨k.val / 128, by have := k.isLt; omega⟩ : Fin 3) = j
  match j with
  | ⟨0, _⟩ => exact row0 x0 b n _
  | ⟨1, _⟩ => exact row1 x1 b n _
  | ⟨2, _⟩ => exact row2 x2 b n _

/-! ## The two affine maps -/

/-- Before the rectifier, entry `(b, n, d)` is the fused row against row `d` of the first weight matrix, plus the bias. -/
theorem pre_apply (x0 x1 x2 : S16x24x512x128.Idx → EReal) (x3 : S128x384.Idx → EReal) (x4 : S128.Idx → EReal)
    (b : Fin 16) (n : Fin 512) (d : Fin 128) :
    val_main_v10 (F := Ideal) x0 x1 x2 x3 x4 (ix3 b n d)
      = (∑ k : Fin 384, Spec.fusedRow (Spec.three x0 x1 x2) b (23 : Fin 24) n k * x3 (ix2 d k)) + x4 (ix1 d) := by
  rw [val_main_v10_apply, val_main_v7_apply, val_main_v9_apply, val_main_v8_apply]
  have el : ∀ k : Fin 384, lidx_main_v7 (ix3 b n d) k = ix3 b n k := fun k => funext fun a => Fin.ext (by
    match a with
    | ⟨0, _⟩ => rfl
    | ⟨1, _⟩ => rfl
    | ⟨2, _⟩ => rfl)
  have er : ∀ k : Fin 384, ridx_main_v7 (ix3 b n d) k = ix2 d k := fun k => funext fun a => Fin.ext (by
    match a with
    | ⟨0, _⟩ => rfl
    | ⟨1, _⟩ => rfl)
  have eb : idx_main_v8 (idx_main_v9 (ix3 b n d)) = ix1 d := funext fun a => Fin.ext (by
    match a with
    | ⟨0, _⟩ => rfl)
  simp only [el, er, eb, fused_apply]
  rfl

/-- After the rectifier. -/
theorem hidden_apply (x0 x1 x2 : S16x24x512x128.Idx → EReal) (x3 : S128x384.Idx → EReal) (x4 : S128.Idx → EReal)
    (b : Fin 16) (n : Fin 512) (d : Fin 128) :
    val_main_v15 (F := Ideal) x0 x1 x2 x3 x4 (ix3 b n d)
      = Spec.hidden (Spec.fusedRow (Spec.three x0 x1 x2) b (23 : Fin 24) n) x3 x4 d := by
  rw [val_main_v15_apply, val_main_v12_apply, val_main_v14_apply, val_main_v11_apply, val_main_v13_apply,
    val_main_cst_apply, val_main_cst_0_apply, pre_apply]
  rfl

/-- The array before the final re-layout is the specification's. -/
theorem v19_eq (x0 x1 x2 : S16x24x512x128.Idx → EReal) (x3 : S128x384.Idx → EReal) (x4 : S128.Idx → EReal)
    (x5 : S12x128.Idx → EReal) (x6 : S12.Idx → EReal) :
    val_main_v19 (F := Ideal) x0 x1 x2 x3 x4 x5 x6 = Spec.H x0 x1 x2 x3 x4 x5 x6 := by
  funext j
  obtain ⟨b, n, z, rfl⟩ : ∃ (b : Fin 16) (n : Fin 512) (z : Fin 12), j = ix3 b n z := ⟨j 0, j 1, j 2, eq_ix3 j⟩
  rw [val_main_v19_apply, val_main_v16_apply, val_main_v18_apply, val_main_v17_apply]
  have el : ∀ k : Fin 128, lidx_main_v16 (ix3 b n z) k = ix3 b n k := fun k => funext fun a => Fin.ext (by
    match a with
    | ⟨0, _⟩ => rfl
    | ⟨1, _⟩ => rfl
    | ⟨2, _⟩ => rfl)
  have er : ∀ k : Fin 128, ridx_main_v16 (ix3 b n z) k = ix2 z k := fun k => funext fun a => Fin.ext (by
    match a with
    | ⟨0, _⟩ => rfl
    | ⟨1, _⟩ => rfl)
  have eb : idx_main_v17 (idx_main_v18 (ix3 b n z)) = ix1 z := funext fun a => Fin.ext (by
    match a with
    | ⟨0, _⟩ => rfl)
  simp only [el, er, eb, hidden_apply]
  rfl

/-- The reference's result is the final re-layout (a trailing unit axis, then the node and output axes exchanged) of
    the specification's array. -/
theorem v21_eq (x0 x1 x2 : S16x24x512x128.Idx → EReal) (x3 : S128x384.Idx → EReal) (x4 : S128.Idx → EReal)
    (x5 : S12x128.Idx → EReal) (x6 : S12.Idx → EReal) :
    val_main_v21 (F := Ideal) x0 x1 x2 x3 x4 x5 x6
      = transpose S16x12x512x1 [0, 2, 1, 3] (shapeCast S16x512x12x1 (Spec.H x0 x1 x2 x3 x4 x5 x6)
          shapeCasts_S16x512x12_S16x512x12x1) transposes_S16x512x12x1_S16x12x512x1_0_2_1_3 := by
  unfold val_main_v21 val_main_v20
  rw [v19_eq]

end Cert.ReferenceIdeal.RefValue

end
-- ==== Proof.KernelRow.lean ====
/-
  The fused kernel's body, read at one entry of the block it stores.

  The body stores one `[1, 512, 12]` block. Its entry `(·, n, z)` is output `z` of the specification's row
  function on the 384 features obtained by laying row `n` of the three loaded `[1, 1, 512, 128]` blocks side by
  side. The two matrix products are sums over the contracted axis; the changes of float format are the identity
  on the extended reals; the bias rows are broadcast down the 512 rows.
-/
import proofs.«104750_j54640573939741_1_alg».proof.Proof.Gen.KernelIdeal.Skeleton
import proofs.«104750_j54640573939741_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## Layout: two leading unit axes dropped; three equal pieces joined along the last axis -/

/-- A `[1, 1, a, b]` array cast to `[a, b]` reads, at `(i, j)`, the operand at `(0, 0, i, j)`. -/
theorem squeeze2_apply {a b : ℕ} {α : Type} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Three `[512, 128]` pieces joined along the columns: column `k` of the result is column `k % 128` of piece
    `k / 128`. -/
theorem concat3_apply (y0 y1 y2 : S512x128.Idx → EReal) (n : Fin 512) (k : Fin 384) :
    concatenate S512x384 1 [⟨S512x128, y0⟩, ⟨S512x128, y1⟩, ⟨S512x128, y2⟩] concatenates_S512x128_S512x128_S512x128_S512x384_d1 (ix2 n k)
      = Spec.three y0 y1 y2 ⟨k.val / 128, by have := k.isLt; omega⟩ (ix2 n ⟨k.val % 128, Nat.mod_lt _ (by decide)⟩) :=
  concatenate_ofFn_apply (t := S512x384) (s₁ := S512x128) 1 (Spec.three y0 y1 y2)
    concatenates_S512x128_S512x128_S512x128_S512x384_d1 rfl 128 rfl (ix2 n k) ⟨k.val / 128, by have := k.isLt; omega⟩ rfl
    (ix2 n ⟨k.val % 128, Nat.mod_lt _ (by decide)⟩) rfl
    (fun b hb => by
      match b with
      | ⟨0, _⟩ => rfl
      | ⟨1, _⟩ => exact absurd rfl hb)

/-! ## The first matrix product: `[512, 384]` by `[128, 384]`, the 384 axis contracted -/

theorem lhs1_0 (i : S512x128.Idx) (q : dot_S512x384_S128x384_S512x128_1_1_0_0_n_n.contr.Idx) :
    (dot_S512x384_S128x384_S512x128_1_1_0_0_n_n.lhsIdx i q 0).val = (i 0).val := by
  unfold DotDims.lhsIdx
  rw [dif_neg (show ¬(0 : Fin S512x384.rank) ∈ dot_S512x384_S128x384_S512x128_1_1_0_0_n_n.lhsBatch by decide), dif_pos (show (0 : Fin S512x384.rank) ∈ dot_S512x384_S128x384_S512x128_1_1_0_0_n_n.lhsNonContracting by decide)]
  rfl
theorem lhs1_1 (i : S512x128.Idx) (q : dot_S512x384_S128x384_S512x128_1_1_0_0_n_n.contr.Idx) :
    (dot_S512x384_S128x384_S512x128_1_1_0_0_n_n.lhsIdx i q 1).val = (q ⟨0, by decide⟩).val :=
  dot_S512x384_S128x384_S512x128_1_1_0_0_n_n.lhsIdx_val_of_single rfl i q
theorem rhs1_0 (i : S512x128.Idx) (q : dot_S512x384_S128x384_S512x128_1_1_0_0_n_n.contr.Idx) :
    (dot_S512x384_S128x384_S512x128_1_1_0_0_n_n.rhsIdx i q 0).val = (i 1).val := by
  unfold DotDims.rhsIdx
  rw [dif_neg (show ¬(0 : Fin S128x384.rank) ∈ dot_S512x384_S128x384_S512x128_1_1_0_0_n_n.rhsBatch by decide), dif_pos (show (0 : Fin S128x384.rank) ∈ dot_S512x384_S128x384_S512x128_1_1_0_0_n_n.rhsNonContracting by decide)]
  rfl
theorem rhs1_1 (i : S512x128.Idx) (q : dot_S512x384_S128x384_S512x128_1_1_0_0_n_n.contr.Idx) :
    (dot_S512x384_S128x384_S512x128_1_1_0_0_n_n.rhsIdx i q 1).val = (q ⟨0, by decide⟩).val :=
  dot_S512x384_S128x384_S512x128_1_1_0_0_n_n.rhsIdx_val_of_single rfl i q

/-- Into the zero accumulator the product's entry `(n, d)` is the sum over the 384 features of row `n` of the left
    operand times row `d` of the right. -/
theorem matmul1_apply (lhs : FVec Ideal S512x384 .bf16) (rhs : FVec Ideal S128x384 .bf16) (n : Fin 512) (d : Fin 128) :
    matmul dot_S512x384_S128x384_S512x128_1_1_0_0_n_n none lhs rhs (constant (F := Ideal) S512x128 .f32 0x00000000#32) (ix2 n d)
      = ∑ k : Fin 384, lhs (ix2 n k) * rhs (ix2 d k) := by
  simp only [matmul]
  rw [Ideal.matmul_constant_zero_apply, ← Equiv.sum_comp (ValueIdx.contrEquiv1 dot_S512x384_S128x384_S512x128_1_1_0_0_n_n 384 rfl rfl).symm]
  refine Finset.sum_congr rfl fun k _ => ?_
  have hk := ValueIdx.contrEquiv1_symm_val dot_S512x384_S128x384_S512x128_1_1_0_0_n_n 384 rfl rfl k
  have el : dot_S512x384_S128x384_S512x128_1_1_0_0_n_n.lhsIdx (ix2 n d) ((ValueIdx.contrEquiv1 dot_S512x384_S128x384_S512x128_1_1_0_0_n_n 384 rfl rfl).symm k) = ix2 n k := funext fun a => Fin.ext (by
    match a with
    | ⟨0, _⟩ => exact lhs1_0 _ _
    | ⟨1, _⟩ => exact (lhs1_1 _ _).trans hk)
  have er : dot_S512x384_S128x384_S512x128_1_1_0_0_n_n.rhsIdx (ix2 n d) ((ValueIdx.contrEquiv1 dot_S512x384_S128x384_S512x128_1_1_0_0_n_n 384 rfl rfl).symm k) = ix2 d k := funext fun a => Fin.ext (by
    match a with
    | ⟨0, _⟩ => exact rhs1_0 _ _
    | ⟨1, _⟩ => exact (rhs1_1 _ _).trans hk)
  rw [el, er]

/-! ## The second matrix product: `[512, 128]` by `[12, 128]`, the 128 axis contracted -/

theorem lhs2_0 (i : S512x12.Idx) (q : dot_S512x128_S12x128_S512x12_1_1_0_0_n_n.contr.Idx) :
    (dot_S512x128_S12x128_S512x12_1_1_0_0_n_n.lhsIdx i q 0).val = (i 0).val := by
  unfold DotDims.lhsIdx
  rw [dif_neg (show ¬(0 : Fin S512x128.rank) ∈ dot_S512x128_S12x128_S512x12_1_1_0_0_n_n.lhsBatch by decide), dif_pos (show (0 : Fin S512x128.rank) ∈ dot_S512x128_S12x128_S512x12_1_1_0_0_n_n.lhsNonContracting by decide)]
  rfl
theorem lhs2_1 (i : S512x12.Idx) (q : dot_S512x128_S12x128_S512x12_1_1_0_0_n_n.contr.Idx) :
    (dot_S512x128_S12x128_S512x12_1_1_0_0_n_n.lhsIdx i q 1).val = (q ⟨0, by decide⟩).val :=
  dot_S512x128_S12x128_S512x12_1_1_0_0_n_n.lhsIdx_val_of_single rfl i q
theorem rhs2_0 (i : S512x12.Idx) (q : dot_S512x128_S12x128_S512x12_1_1_0_0_n_n.contr.Idx) :
    (dot_S512x128_S12x128_S512x12_1_1_0_0_n_n.rhsIdx i q 0).val = (i 1).val := by
  unfold DotDims.rhsIdx
  rw [dif_neg (show ¬(0 : Fin S12x128.rank) ∈ dot_S512x128_S12x128_S512x12_1_1_0_0_n_n.rhsBatch by decide), dif_pos (show (0 : Fin S12x128.rank) ∈ dot_S512x128_S12x128_S512x12_1_1_0_0_n_n.rhsNonContracting by decide)]
  rfl
theorem rhs2_1 (i : S512x12.Idx) (q : dot_S512x128_S12x128_S512x12_1_1_0_0_n_n.contr.Idx) :
    (dot_S512x128_S12x128_S512x12_1_1_0_0_n_n.rhsIdx i q 1).val = (q ⟨0, by decide⟩).val :=
  dot_S512x128_S12x128_S512x12_1_1_0_0_n_n.rhsIdx_val_of_single rfl i q

/-- Into the zero accumulator the product's entry `(n, z)` is the sum over the 128 hidden units of row `n` of the
    left operand times row `z` of the right. -/
theorem matmul2_apply (lhs : FVec Ideal S512x128 .bf16) (rhs : FVec Ideal S12x128 .bf16) (n : Fin 512) (z : Fin 12) :
    matmul dot_S512x128_S12x128_S512x12_1_1_0_0_n_n none lhs rhs (constant (F := Ideal) S512x12 .f32 0x00000000#32) (ix2 n z)
      = ∑ d : Fin 128, lhs (ix2 n d) * rhs (ix2 z d) := by
  simp only [matmul]
  rw [Ideal.matmul_constant_zero_apply, ← Equiv.sum_comp (ValueIdx.contrEquiv1 dot_S512x128_S12x128_S512x12_1_1_0_0_n_n 128 rfl rfl).symm]
  refine Finset.sum_congr rfl fun k _ => ?_
  have hk := ValueIdx.contrEquiv1_symm_val dot_S512x128_S12x128_S512x12_1_1_0_0_n_n 128 rfl rfl k
  have el : dot_S512x128_S12x128_S512x12_1_1_0_0_n_n.lhsIdx (ix2 n z) ((ValueIdx.contrEquiv1 dot_S512x128_S12x128_S512x12_1_1_0_0_n_n 128 rfl rfl).symm k) = ix2 n k := funext fun a => Fin.ext (by
    match a with
    | ⟨0, _⟩ => exact lhs2_0 _ _
    | ⟨1, _⟩ => exact (lhs2_1 _ _).trans hk)
  have er : dot_S512x128_S12x128_S512x12_1_1_0_0_n_n.rhsIdx (ix2 n z) ((ValueIdx.contrEquiv1 dot_S512x128_S12x128_S512x12_1_1_0_0_n_n 128 rfl rfl).symm k) = ix2 z k := funext fun a => Fin.ext (by
    match a with
    | ⟨0, _⟩ => exact rhs2_0 _ _
    | ⟨1, _⟩ => exact (rhs2_1 _ _).trans hk)
  rw [el, er]

end Cert.KernelIdeal.Body

end
-- ==== Proof.KernelBody.lean ====
/-
  The fused kernel's stored block is the specification's row function of the loaded blocks.

  Entry `(·, n, z)` of the `[1, 512, 12]` block the body stores is output `z` of the row whose 384 features are
  row `n` of the three loaded `[1, 1, 512, 128]` blocks side by side, under the loaded weights and biases.
-/
import proofs.«104750_j54640573939741_1_alg».proof.Proof.KernelRow

noncomputable section

namespace Cert.KernelIdeal.Body

open Cert.KernelIdeal Cert.KernelIdeal.Gen Idealize.ShloMosaic Idealize.ShloMosaic.ValueIdx
open scoped BigOperators

/-- The three loaded blocks, their unit axes dropped, joined along the columns: entry `(n, k)` is feature `k` of the
    fused row `n`. -/
theorem fused_apply (x0 x1 x2 : Vec Ideal S1x1x512x128 .f32) (n : Fin 512) (k : Fin 384) :
    concatenate S512x384 1 [⟨S512x128, shapeCast S512x128 x0 shapeCasts_S1x1x512x128_S512x128⟩,
        ⟨S512x128, shapeCast S512x128 x1 shapeCasts_S1x1x512x128_S512x128⟩,
        ⟨S512x128, shapeCast S512x128 x2 shapeCasts_S1x1x512x128_S512x128⟩]
        concatenates_S512x128_S512x128_S512x128_S512x384_d1 (ix2 n k)
      = Spec.fusedRow (Spec.three x0 x1 x2) (0 : Fin 1) (0 : Fin 1) n k := by
  rw [concat3_apply]
  unfold Spec.fusedRow
  generalize hj : (⟨k.val / 128, by have := k.isLt; omega⟩ : Fin 3) = j
  match j with
  | ⟨0, _⟩ => exact squeeze2_apply x0 _ n _
  | ⟨1, _⟩ => exact squeeze2_apply x1 _ n _
  | ⟨2, _⟩ => exact squeeze2_apply x2 _ n _

/-- Before the rectifier, entry `(n, d)` is the fused row `n` against row `d` of the first weight matrix, plus the
    bias broadcast down the rows. -/
theorem pre_apply (x0 x1 x2 : Vec Ideal S1x1x512x128 .f32) (x3 : Vec Ideal S128x384 .f32) (x4 : Vec Ideal S128 .f32)
    (n : Fin 512) (d : Fin 128) :
    addf (matmul dot_S512x384_S128x384_S512x128_1_1_0_0_n_n none
        (truncf .bf16 (concatenate S512x384 1 [⟨S512x128, shapeCast S512x128 x0 shapeCasts_S1x1x512x128_S512x128⟩,
          ⟨S512x128, shapeCast S512x128 x1 shapeCasts_S1x1x512x128_S512x128⟩,
          ⟨S512x128, shapeCast S512x128 x2 shapeCasts_S1x1x512x128_S512x128⟩]
          concatenates_S512x128_S512x128_S512x128_S512x384_d1) bitsLt_bf16_f32)
        (truncf .bf16 x3 bitsLt_bf16_f32) (constant (F := Ideal) S512x128 .f32 0x00000000#32))
      (broadcastTo S512x128 (shapeCast S1x128 x4 shapeCasts_S128_S1x128) broadcasts_S1x128_S512x128) (ix2 n d)
    = (∑ k : Fin 384, Spec.fusedRow (Spec.three x0 x1 x2) (0 : Fin 1) (0 : Fin 1) n k * x3 (ix2 d k)) + x4 (ix1 d) := by
  rw [addf_apply, matmul1_apply, broadcastTo_1b_ab_apply, shapeCast_a_1a_apply]
  refine congrArg (· + x4 (ix1 d)) (Finset.sum_congr rfl fun k _ => ?_)
  rw [truncf_apply, truncf_apply, fused_apply]

/-- The compare, the scaled copy and the select are the leaky rectifier, entry by entry. -/
theorem leaky_apply (y : FVec Ideal S512x128 .f32) (i : S512x128.Idx) :
    select (cmpf .ogt y (broadcast S512x128 (FloatOps.ofBits (F := Ideal) .f32 0x00000000#32))) y
      (mulf (broadcast S512x128 (FloatOps.ofBits (F := Ideal) .f32 0x3C23D70A#32)) y) i = Spec.leaky (y i) := rfl

/-- The stored block at `(·, n, z)`. -/
theorem pay_apply (x0 x1 x2 : Vec Ideal S1x1x512x128 .f32) (x3 : Vec Ideal S128x384 .f32) (x4 : Vec Ideal S128 .f32)
    (x5 : Vec Ideal S12x128 .f32) (x6 : Vec Ideal S12 .f32) (u : Fin 1) (n : Fin 512) (z : Fin 12) :
    k0_pay1 (F := Ideal) x0 x1 x2 x3 x4 x5 x6 (ix3 u n z)
      = Spec.outRow (Spec.fusedRow (Spec.three x0 x1 x2) (0 : Fin 1) (0 : Fin 1) n) x3 x4 x5 x6 z := by
  unfold k0_pay1
  rw [shapeCast_ab_1ab_apply, addf_apply, matmul2_apply, broadcastTo_1b_ab_apply, shapeCast_a_1a_apply]
  unfold Spec.outRow
  refine congrArg (· + x6 (ix1 z)) (Finset.sum_congr rfl fun d _ => ?_)
  rw [truncf_apply, truncf_apply, leaky_apply, pre_apply]
  rfl

end Cert.KernelIdeal.Body

end
-- ==== Proof.KernelBlock.lean ====
/-
  One grid point's stored block is a block of the specification's array.

  At batch element `b` the kernel is handed row block `(b, 23, ·, ·)` of each input array and the whole weight
  arrays. If the loaded blocks read the arrays there, the entry `(·, n, z)` the body stores is entry `(b, n, z)`
  of the specification's `[16, 512, 12]` array.
-/
import proofs.«104750_j54640573939741_1_alg».proof.Proof.KernelBody

noncomputable section

namespace Cert.KernelIdeal.Body

open Cert.KernelIdeal Cert.KernelIdeal.Gen Idealize.ShloMosaic Idealize.ShloMosaic.ValueIdx
open scoped BigOperators

/-- The fused row of the loaded blocks is the fused row `(b, ·)` of the arrays at the last time step. -/
theorem fusedRow_block (X0 X1 X2 : Vec Ideal S1x1x512x128 .f32) (A0 A1 A2 : S16x24x512x128.Idx → EReal) (b : Fin 16)
    (h0 : ∀ (n : Fin 512) (c : Fin 128), X0 (ix4 (0 : Fin 1) (0 : Fin 1) n c) = A0 (ix4 b (23 : Fin 24) n c))
    (h1 : ∀ (n : Fin 512) (c : Fin 128), X1 (ix4 (0 : Fin 1) (0 : Fin 1) n c) = A1 (ix4 b (23 : Fin 24) n c))
    (h2 : ∀ (n : Fin 512) (c : Fin 128), X2 (ix4 (0 : Fin 1) (0 : Fin 1) n c) = A2 (ix4 b (23 : Fin 24) n c))
    (n : Fin 512) :
    Spec.fusedRow (Spec.three X0 X1 X2) (0 : Fin 1) (0 : Fin 1) n = Spec.fusedRow (Spec.three A0 A1 A2) b (23 : Fin 24) n := by
  funext k
  unfold Spec.fusedRow
  generalize hj : (⟨k.val / 128, by have := k.isLt; omega⟩ : Fin 3) = j
  match j with
  | ⟨0, _⟩ => exact h0 n _
  | ⟨1, _⟩ => exact h1 n _
  | ⟨2, _⟩ => exact h2 n _

/-- The stored block's entry at `y` is the specification's array at the index `i` with leading coordinate `b` and
    `y`'s other two. -/
theorem block_eq (X0 X1 X2 : Vec Ideal S1x1x512x128 .f32) (X3 : Vec Ideal S128x384 .f32) (X4 : Vec Ideal S128 .f32)
    (X5 : Vec Ideal S12x128 .f32) (X6 : Vec Ideal S12 .f32)
    (A0 A1 A2 : S16x24x512x128.Idx → EReal) (A3 : S128x384.Idx → EReal) (A4 : S128.Idx → EReal)
    (A5 : S12x128.Idx → EReal) (A6 : S12.Idx → EReal) (b : Fin 16)
    (h0 : ∀ (n : Fin 512) (c : Fin 128), X0 (ix4 (0 : Fin 1) (0 : Fin 1) n c) = A0 (ix4 b (23 : Fin 24) n c))
    (h1 : ∀ (n : Fin 512) (c : Fin 128), X1 (ix4 (0 : Fin 1) (0 : Fin 1) n c) = A1 (ix4 b (23 : Fin 24) n c))
    (h2 : ∀ (n : Fin 512) (c : Fin 128), X2 (ix4 (0 : Fin 1) (0 : Fin 1) n c) = A2 (ix4 b (23 : Fin 24) n c))
    (h3 : ∀ (d : Fin 128) (k : Fin 384), X3 (ix2 d k) = A3 (ix2 d k))
    (h4 : ∀ d : Fin 128, X4 (ix1 d) = A4 (ix1 d))
    (h5 : ∀ (z : Fin 12) (d : Fin 128), X5 (ix2 z d) = A5 (ix2 z d))
    (h6 : ∀ z : Fin 12, X6 (ix1 z) = A6 (ix1 z))
    (y : S1x512x12.Idx) (i : S16x512x12.Idx)
    (hi0 : (i 0).val = b.val) (hi1 : (i 1).val = (y 1).val) (hi2 : (i 2).val = (y 2).val) :
    k0_pay1 (F := Ideal) X0 X1 X2 X3 X4 X5 X6 y = Spec.H A0 A1 A2 A3 A4 A5 A6 i := by
  obtain ⟨u, n, z, rfl⟩ : ∃ (u : Fin 1) (n : Fin 512) (z : Fin 12), y = ix3 u n z := ⟨y 0, y 1, y 2, eq_ix3 y⟩
  have e3 : X3 = A3 := funext fun j => by rw [eq_ix2 j]; exact h3 _ _
  have e4 : X4 = A4 := funext fun j => by rw [eq_ix1 j]; exact h4 _
  have e5 : X5 = A5 := funext fun j => by rw [eq_ix2 j]; exact h5 _ _
  have e6 : X6 = A6 := funext fun j => by rw [eq_ix1 j]; exact h6 _
  have ei0 : i 0 = b := Fin.ext hi0
  have ei1 : i 1 = n := Fin.ext hi1
  have ei2 : i 2 = z := Fin.ext hi2
  rw [pay_apply, fusedRow_block X0 X1 X2 A0 A1 A2 b h0 h1 h2 n, e3, e4, e5, e6]
  unfold Spec.H
  rw [ei0, ei1, ei2]

end Cert.KernelIdeal.Body

end
-- ==== Proof.KernelArray.lean ====
/-
  The array the region leaves, and the program's result.

  Grid point `b` is handed block `(b, 23, ·, ·)` of each input array and the whole weight arrays, and writes back
  block `(b, ·, ·)` of the output array. Each written block is that block of the specification's `[16, 512, 12]`
  array, and the sixteen blocks tile the output array, so the region leaves the specification's array. The two
  host operations after the region re-lay it as `[16, 12, 512, 1]`.
-/
import proofs.«104750_j54640573939741_1_alg».proof.Proof.Gen.KernelIdeal.Frame
import proofs.«104750_j54640573939741_1_alg».proof.Proof.KernelBlock
import Idealize.ShloMosaic.Lib.Pipeline.Value

set_option maxRecDepth 16384

noncomputable section

namespace Cert.KernelIdeal.Array

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the sixteen grid points: point `t` is batch element `t`, the time step is the last
    one, and every other block index is zero. -/
theorem idx_facts : ∀ t : Fin cfg0.N,
    win0_0.index t (0 : Fin 4) = t.val ∧ win0_0.index t (1 : Fin 4) = 23 ∧ win0_0.index t (2 : Fin 4) = 0 ∧ win0_0.index t (3 : Fin 4) = 0
    ∧ win0_1.index t (0 : Fin 4) = t.val ∧ win0_1.index t (1 : Fin 4) = 23 ∧ win0_1.index t (2 : Fin 4) = 0 ∧ win0_1.index t (3 : Fin 4) = 0
    ∧ win0_2.index t (0 : Fin 4) = t.val ∧ win0_2.index t (1 : Fin 4) = 23 ∧ win0_2.index t (2 : Fin 4) = 0 ∧ win0_2.index t (3 : Fin 4) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- The specification's array of the arrays the region finds. -/
abbrev Hout (c : Dev nD) : S16x512x12.Idx → EReal :=
  Spec.H (V m c main_arg0) (V m c main_arg1) (V m c main_arg2) (V m c main_arg3) (V m c main_arg4) (V m c main_arg5)
    (V m c main_arg6)

/-- What grid point `t` writes back is its block of the specification's array. -/
theorem flushed_eq (c : Dev nD) (t : Fin cfg0.N) :
    (dats m 0 c).flushed 7 t = ((cfg0.win 7).blk t).view.read (Elt Ideal) (Hout m c) := by
  show (cfg0.win 7).cut (grid0.coords t) ((dats m 0 c).after 7 t) = _
  rw [after0_7]
  unfold out0_7
  rw [View.canon_unit_zero hz3]
  simp only [View.ld_unit_zero (S := S1x1x512x128) hz4, View.ld_unit_zero (S := S128x384) hz2,
    View.ld_unit_zero (S := S128) hz1, View.ld_unit_zero (S := S12x128) hz2, View.ld_unit_zero (S := S12) hz1]
  obtain ⟨a00, a01, a02, a03, a10, a11, a12, a13, a20, a21, a22, a23, a30, a31, a40, a50, a51, a60, a70, a71, a72⟩ := idx_facts t
  have ht : t.val < 16 := t.isLt.trans_eq N_0
  funext y
  show k0_pay1 (F := Ideal) (iblk m c 0 t) (iblk m c 1 t) (iblk m c 2 t) (iblk m c 3 t) (iblk m c 4 t) (iblk m c 5 t)
      (iblk m c 6 t) y = Hout m c (((cfg0.win 7).blk t).view.emb y)
  refine block_eq (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4) (V m c main_arg5)
    (V m c main_arg6) (⟨t.val, ht⟩ : Fin 16) ?_ ?_ ?_ ?_ ?_ ?_ ?_ y (((cfg0.win 7).blk t).view.emb y) ?_ ?_ ?_
  · intro n q
    have e : ((cfg0.win 0).blk t).view.emb (ix4 (0 : Fin 1) (0 : Fin 1) n q) = ix4 (⟨t.val, ht⟩ : Fin 16) (23 : Fin 24) n q := by
      funext a; apply Fin.ext
      match a with
      | ⟨0, _⟩ => show win0_0.index t (0 : Fin 4) * 1 + 1 * 0 = t.val; omega
      | ⟨1, _⟩ => show win0_0.index t (1 : Fin 4) * 1 + 1 * 0 = 23; omega
      | ⟨2, _⟩ => show win0_0.index t (2 : Fin 4) * 512 + 1 * n.val = n.val; omega
      | ⟨3, _⟩ => show win0_0.index t (3 : Fin 4) * 128 + 1 * q.val = q.val; omega
    show V m c main_arg0 (((cfg0.win 0).blk t).view.emb (ix4 (0 : Fin 1) (0 : Fin 1) n q)) = _
    rw [e]
  · intro n q
    have e : ((cfg0.win 1).blk t).view.emb (ix4 (0 : Fin 1) (0 : Fin 1) n q) = ix4 (⟨t.val, ht⟩ : Fin 16) (23 : Fin 24) n q := by
      funext a; apply Fin.ext
      match a with
      | ⟨0, _⟩ => show win0_1.index t (0 : Fin 4) * 1 + 1 * 0 = t.val; omega
      | ⟨1, _⟩ => show win0_1.index t (1 : Fin 4) * 1 + 1 * 0 = 23; omega
      | ⟨2, _⟩ => show win0_1.index t (2 : Fin 4) * 512 + 1 * n.val = n.val; omega
      | ⟨3, _⟩ => show win0_1.index t (3 : Fin 4) * 128 + 1 * q.val = q.val; omega
    show V m c main_arg1 (((cfg0.win 1).blk t).view.emb (ix4 (0 : Fin 1) (0 : Fin 1) n q)) = _
    rw [e]
  · intro n q
    have e : ((cfg0.win 2).blk t).view.emb (ix4 (0 : Fin 1) (0 : Fin 1) n q) = ix4 (⟨t.val, ht⟩ : Fin 16) (23 : Fin 24) n q := by
      funext a; apply Fin.ext
      match a with
      | ⟨0, _⟩ => show win0_2.index t (0 : Fin 4) * 1 + 1 * 0 = t.val; omega
      | ⟨1, _⟩ => show win0_2.index t (1 : Fin 4) * 1 + 1 * 0 = 23; omega
      | ⟨2, _⟩ => show win0_2.index t (2 : Fin 4) * 512 + 1 * n.val = n.val; omega
      | ⟨3, _⟩ => show win0_2.index t (3 : Fin 4) * 128 + 1 * q.val = q.val; omega
    show V m c main_arg2 (((cfg0.win 2).blk t).view.emb (ix4 (0 : Fin 1) (0 : Fin 1) n q)) = _
    rw [e]
  · intro d k
    have e : ((cfg0.win 3).blk t).view.emb (ix2 d k) = ix2 d k := by
      funext a; apply Fin.ext
      match a with
      | ⟨0, _⟩ => show win0_3.index t (0 : Fin 2) * 128 + 1 * d.val = d.val; omega
      | ⟨1, _⟩ => show win0_3.index t (1 : Fin 2) * 384 + 1 * k.val = k.val; omega
    show V m c main_arg3 (((cfg0.win 3).blk t).view.emb (ix2 d k)) = _
    rw [e]
  · intro d
    have e : ((cfg0.win 4).blk t).view.emb (ix1 d) = ix1 d := by
      funext a; apply Fin.ext
      match a with
      | ⟨0, _⟩ => show win0_4.index t (0 : Fin 1) * 128 + 1 * d.val = d.val; omega
    show V m c main_arg4 (((cfg0.win 4).blk t).view.emb (ix1 d)) = _
    rw [e]
  · intro z d
    have e : ((cfg0.win 5).blk t).view.emb (ix2 z d) = ix2 z d := by
      funext a; apply Fin.ext
      match a with
      | ⟨0, _⟩ => show win0_5.index t (0 : Fin 2) * 12 + 1 * z.val = z.val; omega
      | ⟨1, _⟩ => show win0_5.index t (1 : Fin 2) * 128 + 1 * d.val = d.val; omega
    show V m c main_arg5 (((cfg0.win 5).blk t).view.emb (ix2 z d)) = _
    rw [e]
  · intro z
    have e : ((cfg0.win 6).blk t).view.emb (ix1 z) = ix1 z := by
      funext a; apply Fin.ext
      match a with
      | ⟨0, _⟩ => show win0_6.index t (0 : Fin 1) * 12 + 1 * z.val = z.val; omega
    show V m c main_arg6 (((cfg0.win 6).blk t).view.emb (ix1 z)) = _
    rw [e]
  · show win0_7.index t (0 : Fin 3) * 1 + 1 * (y 0).val = t.val
    have := (y 0).isLt
    have h1 : (y 0).val < 1 := this
    omega
  · show win0_7.index t (1 : Fin 3) * 512 + 1 * (y 1).val = (y 1).val; omega
  · show win0_7.index t (2 : Fin 3) * 12 + 1 * (y 2).val = (y 2).val; omega

/-- An index of the output array is in point `t`'s block iff each coordinate is in the block's range on its axis. -/
theorem mem_blk (t : Fin cfg0.N) (i : S16x512x12.Idx) :
    i ∈ ((cfg0.win 7).blk t).view.set ↔ ∀ a : Fin 3, win0_7.index t a * S1x512x12.size a ≤ (i a).val
      ∧ (i a).val < win0_7.index t a * S1x512x12.size a + S1x512x12.size a := by
  show i ∈ ((View.whole main_v0).slice (win0_7.rect t)).set ↔ _
  rw [View.set_slice_whole, Rect.mem_set_unit]
  exact Iff.rfl

/-- Every batch element is some grid point's. -/
theorem idx_onto : ∀ q : Fin 16, ∃ t : Fin cfg0.N, win0_7.index t = ![q.val, 0, 0] :=
  (by decide +kernel : ∀ q : Fin 16, ∃ t : Fin grid0.N, win0_7.index t = ![q.val, 0, 0])

/-- The sixteen written blocks cover the output array. -/
theorem cover (i : S16x512x12.Idx) :
    ∃ t : Fin cfg0.N, (cfg0.win 7).flush t = true ∧ i ∈ ((cfg0.win 7).blk t).view.set := by
  have hi0 : (i 0).val < 16 := (i 0).isLt
  have hi1 : (i 1).val < 512 := (i 1).isLt
  have hi2 : (i 2).val < 12 := (i 2).isLt
  obtain ⟨t, ht⟩ := idx_onto ⟨(i 0).val, hi0⟩
  have q0 : win0_7.index t (0 : Fin 3) = (i 0).val := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 12 ≤ (i 2).val ∧ (i 2).val < win0_7.index t (2 : Fin 3) * 12 + 12; omega

/-- The output array after the region is the specification's. -/
theorem final (c : Dev nD) : (dats m 0 c).arrAt 7 cfg0.N = Hout m c :=
  (dats m 0 c).arrAt_eq_of_cover 7 (Hout m c) (fun t _ => flushed_eq m c t) cover

end Cert.KernelIdeal.Array

end
-- ==== Proof.KernelRun.lean ====
/-
  The fused program's run: its result is the re-layout of the specification's array.

  After the region the output array holds the specification's `[16, 512, 12]` array; the two host operations that
  follow give it a trailing unit axis and exchange the node and output axes. The argument arrays end unchanged.
-/
import proofs.«104750_j54640573939741_1_alg».proof.Proof.KernelArray
import Idealize.ShloMosaic.Lib.StableHlo.Run

set_option maxRecDepth 16384

noncomputable section

namespace Cert.KernelIdeal.Array

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The final re-layout both programs apply: a trailing unit axis, then the node and output axes exchanged. -/
abbrev relayout (X : S16x512x12.Idx → EReal) : S16x12x512x1.Idx → EReal :=
  transpose S16x12x512x1 [0, 2, 1, 3] (shapeCast S16x512x12x1 X shapeCasts_S16x512x12_S16x512x12x1)
    transposes_S16x512x12x1_S16x12x512x1_0_2_1_3

/-- What the lines after the region leave in the result buffer. -/
theorem result_eq (c : Dev nD) :
    Pipeline.afterTail₀ cfgs (dats m) 0 (V0 m) [hostOps1] c main_v2 = relayout (Hout m c) := by
  have hw : Pipeline.withArrays (cfgs 0).spec c (V0 m c) (fun w => (dats m 0 c).arrAt w (cfgs 0).N) (Proc.devRef .tc main_v0)
      = Hout m c :=
    (Pipeline.withArrays_arr spec0 launch0.win.arr_inj c _ _ 7).trans (final m c)
  unfold Pipeline.afterTail₀
  show StableHlo.after hostOps1 _ (Proc.devRef .tc main_v2) = _
  after_results
  rw [hw]
  rfl

/-- The result buffer is no array of the pipeline. -/
theorem result_rest : main_v2 ∈ Pipeline.restRefs sig spec0 :=
  Pipeline.mem_restRefs_of main_v2 rfl (by decide)

/-- Every weakly fair execution terminates with the result at the re-layout of the specification's array of the
    argument arrays, and the arguments unchanged. -/
theorem run : θ_run defs (onTc (τ := τ) (main (F := Ideal))) ⟨m, fun _ => 0, ρ⟩ fun r => ∀ c : Dev nD,
      r.2.mem ((c.tc : Thread nD τ).loc main_v2) = relayout (Spec.H (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v2 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Array

end
-- ==== Proof.lean ====
/-
  The fused kernel and its reference compute one function.

  Both programs take, for each of the 16 batch elements and 512 nodes, the rows of three `[16, 24, 512, 128]`
  arrays at the last time step, lay them side by side as 384 features, apply an affine map to 128 hidden units,
  the leaky rectifier `y ↦ y` where `y > 0` and `slope · y` elsewhere (the slope one 32-bit word on both sides), a
  second affine map to 12 outputs, and re-lay the `[16, 512, 12]` result as `[16, 12, 512, 1]`.

  The kernel does this one batch element per grid point on `[512, ·]` blocks, with two matrix products into zero
  accumulators and its operands passed through a narrower float format; the reference does it on whole arrays
  with two general dot products. On the extended reals a change of float format is the identity and both kinds of
  product are the same finite sums, taken in the same order, so no law beyond the definitions is needed and the
  finiteness of the inputs is never used.

  `Spec` states the function; `Reference` reads the reference's stages at an index; `KernelRow`, `KernelBody`
  and `KernelBlock` read the kernel body's stored block; `KernelArray` shows the sixteen written blocks tile the
  output array with the specification's values; `KernelRun` carries that through the host operations after the
  region. The idealization rewrote nothing, so the kernel's idealized program is its own text read over the
  extended reals.
-/
import proofs.«104750_j54640573939741_1_alg».proof.Defs
import proofs.«104750_j54640573939741_1_alg».proof.Proof.Gen.Kernel
import proofs.«104750_j54640573939741_1_alg».proof.Proof.Gen.Kernel.Skeleton
import proofs.«104750_j54640573939741_1_alg».proof.Proof.Gen.Kernel.Launch
import proofs.«104750_j54640573939741_1_alg».proof.Proof.Gen.Kernel.Points
import proofs.«104750_j54640573939741_1_alg».proof.Proof.Gen.Kernel.Frame
import proofs.«104750_j54640573939741_1_alg».proof.Proof.Gen.KernelIdeal
import proofs.«104750_j54640573939741_1_alg».proof.Proof.Gen.KernelIdeal.Skeleton
import proofs.«104750_j54640573939741_1_alg».proof.Proof.Gen.KernelIdeal.Launch
import proofs.«104750_j54640573939741_1_alg».proof.Proof.Gen.KernelIdeal.Points
import proofs.«104750_j54640573939741_1_alg».proof.Proof.Gen.KernelIdeal.Frame
import proofs.«104750_j54640573939741_1_alg».proof.Proof.Gen.ReferenceIdeal
import proofs.«104750_j54640573939741_1_alg».proof.Proof.Gen.ReferenceIdeal.Run
import proofs.«104750_j54640573939741_1_alg».proof.Proof.Gen.ReferenceIdeal.Read
import proofs.«104750_j54640573939741_1_alg».proof.Proof.Gen.Pre_finite_inputs
import proofs.«104750_j54640573939741_1_alg».proof.Proof.Reference
import proofs.«104750_j54640573939741_1_alg».proof.Proof.KernelRun
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the re-layout of the specification's array of
    the arguments: the kernel by its run, the reference by its run read stage by stage. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.v21_eq,
    (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
